-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S2097152 : Shape := ⟨1, ![2097152]⟩
abbrev S256x8 : Shape := ⟨2, ![256, 8]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256x8 : S_.BroadcastsInDim S256x8 (![] : Fin 0 → Fin S256x8.rank)
  reducesTo_S256x8_S_d0_1 : S256x8.ReducesTo [0, 1] S_
  bcast_S_S4096 : S_.BroadcastsInDim S4096 (![] : Fin 0 → Fin S4096.rank)
  reducesTo_S4096_S_d0 : S4096.ReducesTo [0] S_
  bcast_S_S2097152 : S_.BroadcastsInDim S2097152 (![] : Fin 0 → Fin S2097152.rank)
  reducesTo_S2097152_S_d0 : S2097152.ReducesTo [0] S_

variable [Facts]

def fn_part1 {F : FTy → Type} [FloatOps F] (main_arg1 : IVec S2097152 32) (main_v13 : IVec S_ 1) (main_v15 : IVec S2097152 1) (main_c_5 : IVec S_ 32) : IVec S_ 1 :=
  let main_v16 : IVec S2097152 32 := broadcastInDim S2097152 ![] bcast_S_S2097152 main_c_5
  let main_v17 : IVec S2097152 1 := cmpi .slt main_arg1 main_v16
  let main_v18 : IVec S2097152 1 := andi main_v15 main_v17
  let main_c_6 : IVec S_ 1 := constantI S_ 1 1#1
  let main_v19 : IVec S_ 1 := (fun x v => Host.reduce IntOp.andi x v reducesTo_S2097152_S_d0 h_S_) main_v18 main_c_6
  let main_v20 : IVec S_ 1 := andi main_v13 main_v19
  main_v20

def fn {F : FTy → Type} [FloatOps F] (main_arg0 : FVec F S4x2048x4096 .f32) (main_arg1 : IVec S2097152 32) (main_arg2 : FVec F S256x8 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256x8 .f32 := Host.absf main_arg2
  let main_cst_0 : FVec F S_ .f32 := constant S_ .f32 0x7F800000#32
  let main_v5 : FVec F S256x8 .f32 := broadcastInDim S256x8 ![] bcast_S_S256x8 main_cst_0
  let main_v6 : IVec S256x8 1 := cmpf .olt main_v4 main_v5
  let main_c_1 : IVec S_ 1 := constantI S_ 1 1#1
  let main_v7 : IVec S_ 1 := (fun x v => Host.reduce IntOp.andi x v reducesTo_S256x8_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 4294967040#32
  let main_v14 : IVec S2097152 32 := broadcastInDim S2097152 ![] bcast_S_S2097152 main_c_4
  let main_v15 : IVec S2097152 1 := cmpi .sge main_arg1 main_v14
  let main_c_5 : IVec S_ 32 := constantI S_ 32 256#32
  fn_part1 (F := F) main_arg1 main_v13 main_v15 main_c_5
-- ==== Kernel.lean ====
abbrev S4x2048x4096 : Shape := ⟨3, ![4, 2048, 4096]⟩
abbrev S2097152 : Shape := ⟨1, ![2097152]⟩
abbrev S256x8 : Shape := ⟨2, ![256, 8]⟩
abbrev S4096 : Shape := ⟨1, ![4096]⟩
abbrev S_ : Shape := ⟨0, ![]⟩
abbrev S2097152x1 : Shape := ⟨2, ![2097152, 1]⟩
abbrev S1 : Shape := ⟨1, ![1]⟩
abbrev S1x1 : Shape := ⟨2, ![1, 1]⟩
abbrev S2097152x8 : Shape := ⟨2, ![2097152, 8]⟩
abbrev S4096x4096 : Shape := ⟨2, ![4096, 4096]⟩
abbrev S8192x4096 : Shape := ⟨2, ![8192, 4096]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 34
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S2097152, .i32⟩
  | .hbm, ⟨2, _⟩ => ⟨S256x8, .f32⟩
  | .hbm, ⟨3, _⟩ => ⟨S4096, .f32⟩
  | .hbm, ⟨4, _⟩ => ⟨S_, .i32⟩
  | .hbm, ⟨5, _⟩ => ⟨S2097152, .i32⟩
  | .hbm, ⟨6, _⟩ => ⟨S2097152, .i1⟩
  | .hbm, ⟨7, _⟩ => ⟨S_, .i32⟩
  | .hbm, ⟨8, _⟩ => ⟨S2097152, .i32⟩
  | .hbm, ⟨9, _⟩ => ⟨S2097152, .i32⟩
  | .hbm, ⟨10, _⟩ => ⟨S2097152, .i32⟩
  | .hbm, ⟨11, _⟩ => ⟨S2097152x1, .i32⟩
  | .hbm, ⟨12, _⟩ => ⟨S1, .i32⟩
  | .hbm, ⟨13, _⟩ => ⟨S_, .i32⟩
  | .hbm, ⟨14, _⟩ => ⟨S2097152x1, .i32⟩
  | .hbm, ⟨15, _⟩ => ⟨S2097152x1, .i1⟩
  | .hbm, ⟨16, _⟩ => ⟨S1x1, .i32⟩
  | .hbm, ⟨17, _⟩ => ⟨S2097152x1, .i32⟩
  | .hbm, ⟨18, _⟩ => ⟨S2097152x1, .i1⟩
  | .hbm, ⟨19, _⟩ => ⟨S2097152x1, .i1⟩
  | .hbm, ⟨20, _⟩ => ⟨S_, .i1⟩
  | .hbm, ⟨21, _⟩ => ⟨S2097152, .i1⟩
  | .hbm, ⟨22, _⟩ => ⟨S2097152x8, .f32⟩
  | .hbm, ⟨23, _⟩ => ⟨S2097152x8, .i1⟩
  | .hbm, ⟨24, _⟩ => ⟨S_, .f32⟩
  | .hbm, ⟨25, _⟩ => ⟨S2097152x8, .f32⟩
  | .hbm, ⟨26, _⟩ => ⟨S2097152x8, .f32⟩
  | .hbm, ⟨27, _⟩ => ⟨S4096x4096, .f32⟩
  | .hbm, ⟨28, _⟩ => ⟨S8192x4096, .f32⟩
  | .hbm, ⟨29, _⟩ => ⟨S8192x4096, .bf16⟩
  | .hbm, ⟨30, _⟩ => ⟨S4096x4096, .bf16⟩
  | .hbm, ⟨31, _⟩ => ⟨S1x4096, .f32⟩
  | .hbm, ⟨32, _⟩ => ⟨S8192x4096, .f32⟩
  | .hbm, ⟨33, _⟩ => ⟨S4x2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  reducesTo_S2097152x1_S2097152_d1 : S2097152x1.ReducesTo [1] S2097152
  h_S_ : 0 < S_.numel
  bcast_S2097152_S2097152x8_0 : S2097152.BroadcastsInDim S2097152x8 (![0] : Fin 1 → Fin S2097152x8.rank)
  bcast_S_S2097152x8 : S_.BroadcastsInDim S2097152x8 (![] : Fin 0 → Fin S2097152x8.rank)
  shapeCasts_S2097152x8_S4096x4096 : S2097152x8.ShapeCasts S4096x4096
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  gather_S256x8_S2097152x1_S2097152x8_1_0_n_n_0_1_18_wf : GatherDims.WF S256x8 S2097152x1 S2097152x8 [1] [0] [] [0] [] 1 ![1, 8]
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def gather_S256x8_S2097152x1_S2097152x8_1_0_n_n_0_1_18 : GatherDims S256x8 S2097152x1 S2097152x8 where
  offsetDims := [1]
  collapsedSliceDims := [0]
  operandBatchingDims := []
  startIndicesBatchingDims := []
  startIndexMap := [0]
  indexVectorDim := 1
  sliceSizes := ![1, 8]
  wf := gather_S256x8_S2097152x1_S2097152x8_1_0_n_n_0_1_18_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v3) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S2097152 : Shape := ⟨1, ![2097152]⟩
abbrev S256x8 : Shape := ⟨2, ![256, 8]⟩
abbrev S4096 : Shape := ⟨1, ![4096]⟩
abbrev S_ : Shape := ⟨0, ![]⟩
abbrev S2097152x1 : Shape := ⟨2, ![2097152, 1]⟩
abbrev S2097152x8 : Shape := ⟨2, ![2097152, 8]⟩
abbrev S16777216 : Shape := ⟨1, ![16777216]⟩
abbrev S4096x4096 : Shape := ⟨2, ![4096, 4096]⟩
abbrev S1x1x4096 : Shape := ⟨3, ![1, 1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2097152, .i32⟩
  | .hbm, ⟨2, _⟩ => ⟨S256x8, .f32⟩
  | .hbm, ⟨3, _⟩ => ⟨S4096, .f32⟩
  | .hbm, ⟨4, _⟩ => ⟨S_, .i32⟩
  | .hbm, ⟨5, _⟩ => ⟨S2097152, .i32⟩
  | .hbm, ⟨6, _⟩ => ⟨S2097152, .i1⟩
  | .hbm, ⟨7, _⟩ => ⟨S_, .i32⟩
  | .hbm, ⟨8, _⟩ => ⟨S2097152, .i32⟩
  | .hbm, ⟨9, _⟩ => ⟨S2097152, .i32⟩
  | .hbm, ⟨10, _⟩ => ⟨S2097152, .i32⟩
  | .hbm, ⟨11, _⟩ => ⟨S2097152x1, .i32⟩
  | .hbm, ⟨12, _⟩ => ⟨S2097152x8, .f32⟩
  | .hbm, ⟨13, _⟩ => ⟨S16777216, .f32⟩
  | .hbm, ⟨14, _⟩ => ⟨S4096x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S16777216 : S2097152x8.ShapeCasts S16777216
  shapeCasts_S16777216_S4096x4096 : S16777216.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256x8_S2097152x1_S2097152x8_1_0_n_n_0_1_18_wf : GatherDims.WF S256x8 S2097152x1 S2097152x8 [1] [0] [] [0] [] 1 ![1, 8]
  dot_S4x2048x4096_S4096x4096_S4x2048x4096_2_1_01_0_n_n_wf : DotDims.WF S4x2048x4096 S4096x4096 S4x2048x4096 [2] [1] [0, 1] [0] [] []

variable [Facts₀]

def gather_S256x8_S2097152x1_S2097152x8_1_0_n_n_0_1_18 : GatherDims S256x8 S2097152x1 S2097152x8 where
  offsetDims := [1]
  collapsedSliceDims := [0]
  operandBatchingDims := []
  startIndicesBatchingDims := []
  startIndexMap := [0]
  indexVectorDim := 1
  sliceSizes := ![1, 8]
  wf := gather_S256x8_S2097152x1_S2097152x8_1_0_n_n_0_1_18_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelPieces.lean ====
/-
  What one run of the kernel body leaves in the output's staging buffer, case by case, as a
  value: at the first reduction step the zero block plus the step's partial product, at a middle
  step the running block plus the partial product, and at the last step that plus the bias row
  broadcast down the block.
-/
import proofs.«409225_j24721831756590_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- A middle reduction step: the running block `xo` plus the partial product of the two input blocks. -/
theorem out_B (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (hc0 : ¬cond0_0 i) (hc1 : ¬cond0_1 i)
    (x0 : Vec F S2048x1024 .bf16) (x1 : Vec F S1024x1024 .bf16) (x2 : Vec F S1x1024 .f32) (xo : Vec F S2048x1024 .f32) :
    out0_B_3 c i a3 h3 a4 h4 a5 h5 a6 h6 hc0 hc1 x0 x1 x2 xo = k0_pay2 xo x0 x1 := by
  unfold out0_B_3
  rw [View.read_writes_eq_canon _ _ _ (cover0_B_3 c i a3 h3 a4 h4 a5 h5 a6 h6 hc0 hc1 x0 x1 x2 xo)]
  unfold kernelRun0_B
  dsimp only
  sl_unfold_words
  rw [View.canon_unit_zero hz]
  simp only [View.readAt_eq_ld, h3.read_unread, h4.read_unread, h5.read_unread, h6.read_unread,
    View.ld_unit_zero (S := S2048x1024) hz, View.ld_unit_zero (S := S1024x1024) hz, View.ld_unit_zero (S := S1x1024) hz]

/-- The first reduction step: the zero block plus the partial product (the zero block is stored, read back, and the sum stored over it). -/
theorem out_A (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (hc0 : cond0_0 i) (hc1 : ¬cond0_1 i)
    (x0 : Vec F S2048x1024 .bf16) (x1 : Vec F S1024x1024 .bf16) (x2 : Vec F S1x1024 .f32) :
    out0_A_3 c i a3 h3 a4 h4 a5 h5 a6 h6 hc0 hc1 x0 x1 x2 = k0_pay2 (k0_pay1 (F := F)) x0 x1 := by
  unfold out0_A_3
  rw [View.read_writes_eq_canon _ _ _ (cover0_A_3 c i a3 h3 a4 h4 a5 h5 a6 h6 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread, h5.read_unread, h6.read_unread,
    View.ld_unit_zero (S := S2048x1024) hz, View.ld_unit_zero (S := S1024x1024) hz, View.ld_unit_zero (S := S1x1024) hz]

/-- The last reduction step: the running block plus the partial product, and then the bias row added to every row. -/
theorem out_C (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (hc0 : ¬cond0_0 i) (hc1 : cond0_1 i)
    (x0 : Vec F S2048x1024 .bf16) (x1 : Vec F S1024x1024 .bf16) (x2 : Vec F S1x1024 .f32) (xo : Vec F S2048x1024 .f32) :
    out0_C_3 c i a3 h3 a4 h4 a5 h5 a6 h6 hc0 hc1 x0 x1 x2 xo = k0_pay3 (k0_pay2 xo x0 x1) x2 := by
  unfold out0_C_3
  rw [View.read_writes_eq_canon _ _ _ (cover0_C_3 c i a3 h3 a4 h4 a5 h5 a6 h6 hc0 hc1 x0 x1 x2 xo)]
  unfold kernelRun0_C
  dsimp only
  sl_unfold_words
  rw [View.canon_cons_unit_zero (S := S2048x1024) hz, View.readCov_unit_zero (S := S2048x1024) _ hz]
  simp only [View.readAt_eq_ld, h3.read_unread, h4.read_unread, h5.read_unread, h6.read_unread,
    View.ld_unit_zero (S := S2048x1024) hz, View.ld_unit_zero (S := S1024x1024) hz, View.ld_unit_zero (S := S1x1024) hz]

end Cert.KernelIdeal.Pieces

end
-- ==== Proof.KernelPay.lean ====
/-
  The body's three stored values read at one entry (p, r) of the [2048, 1024] output block, over
  the extended reals: the zero block is 0; the accumulation step adds to the running entry the
  product of row p of the activation block with row r of the weight block (both run along the
  contracted axis, so the block product is a @ b^T); the last step adds entry r of the bias row.
-/
import proofs.«409225_j24721831756590_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The zero block's entries are 0. -/
theorem zero_apply (j : S2048x1024.Idx) : k0_pay1 (F := Ideal) j = 0 := by
  show Ideal.ofBits .f32 0x00000000#32 = 0
  exact Ideal.ofBits_zero_f32

theorem lhs_blk_0 (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem lhs_blk_1 (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem rhs_blk_0 (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem rhs_blk_1 (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The block product into a zero accumulator at (p, r): row p of the left block against row r of the right block. -/
theorem blockProduct_apply (a : FVec Ideal S2048x1024 .bf16) (b : FVec Ideal S1024x1024 .bf16) (p : Fin 2048) (r : Fin 1024) :
    matmul dot_S2048x1024_S1024x1024_S2048x1024_1_1_0_0_n_n none a b (constant (F := Ideal) S2048x1024 .f32 0x00000000#32) (ix2 p r)
      = ∑ kk : Fin 1024, a (ix2 p kk) * b (ix2 r kk) := by
  show FloatOps.matmul dot_S2048x1024_S1024x1024_S2048x1024_1_1_0_0_n_n none a b (constant (F := Ideal) S2048x1024 .f32 0x00000000#32) (ix2 p r) = _
  rw [Ideal.matmul_constant_zero_apply, ← Equiv.sum_comp (ValueIdx.contrEquiv1 dot_S2048x1024_S1024x1024_S2048x1024_1_1_0_0_n_n 1024 rfl rfl).symm]
  refine Finset.sum_congr rfl fun k _ => ?_
  have hk := ValueIdx.contrEquiv1_symm_val dot_S2048x1024_S1024x1024_S2048x1024_1_1_0_0_n_n 1024 rfl rfl k
  have el : dot_S2048x1024_S1024x1024_S2048x1024_1_1_0_0_n_n.lhsIdx (ix2 p r) ((ValueIdx.contrEquiv1 dot_S2048x1024_S1024x1024_S2048x1024_1_1_0_0_n_n 1024 rfl rfl).symm k) = ix2 p k := funext fun ax => Fin.ext (by
    match ax with
    | ⟨0, _⟩ => exact lhs_blk_0 _ _
    | ⟨1, _⟩ => exact (lhs_blk_1 _ _).trans hk)
  have er : dot_S2048x1024_S1024x1024_S2048x1024_1_1_0_0_n_n.rhsIdx (ix2 p r) ((ValueIdx.contrEquiv1 dot_S2048x1024_S1024x1024_S2048x1024_1_1_0_0_n_n 1024 rfl rfl).symm k) = ix2 r k := funext fun ax => Fin.ext (by
    match ax with
    | ⟨0, _⟩ => exact rhs_blk_0 _ _
    | ⟨1, _⟩ => exact (rhs_blk_1 _ _).trans hk)
  rw [el, er]

/-- The accumulation step at (p, r): the running entry plus the block product's entry. -/
theorem step_apply (acc : Vec Ideal S2048x1024 .f32) (a : Vec Ideal S2048x1024 .bf16) (b : Vec Ideal S1024x1024 .bf16) (p : Fin 2048) (r : Fin 1024) :
    k0_pay2 (F := Ideal) acc a b (ix2 p r) = acc (ix2 p r) + ∑ kk : Fin 1024, a (ix2 p kk) * b (ix2 r kk) := by
  unfold k0_pay2
  simp only [shapeCast_self]
  rw [addf_apply, blockProduct_apply]

/-- The last step at (p, r): the entry plus entry r of the bias row. -/
theorem bias_apply (acc : Vec Ideal S2048x1024 .f32) (bias : Vec Ideal S1x1024 .f32) (p : Fin 2048) (r : Fin 1024) :
    k0_pay3 (F := Ideal) acc bias (ix2 p r) = acc (ix2 p r) + bias (ix2 (0 : Fin 1) r) := by
  unfold k0_pay3
  simp only [shapeCast_self]
  rw [addf_apply, broadcastTo_1b_ab_apply]

end Cert.KernelIdeal.Pay

end
-- ==== Proof.KernelAcc.lean ====
/-
  The output block's staging buffer over the four reduction steps of one (row block, column
  block) pair, over the extended reals. Grid point t has reduction coordinate t mod 4. After the
  first step the buffer holds 0 plus that step's partial product; each later step adds its own;
  the last also adds the bias row. So after the point with t mod 4 = 3 entry (p, r) is
  ((((0 + P(t-3)) + P(t-2)) + P(t-1)) + P(t)) + bias block entry r, P(u) the partial product of
  point u's two input blocks at (p, r).
-/
import proofs.«409225_j24721831756590_1_alg».proof.Proof.KernelPieces
import proofs.«409225_j24721831756590_1_alg».proof.Proof.KernelPay

noncomputable section

namespace Cert.KernelIdeal.Acc

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The activation block, the weight block and the bias block the pipeline hands the body at point `t`. -/
abbrev ablk (c : Dev nD) (t : Fin cfg0.N) : Vec Ideal S2048x1024 .bf16 := iblk m c 0 t
abbrev bblk (c : Dev nD) (t : Fin cfg0.N) : Vec Ideal S1024x1024 .bf16 := iblk m c 1 t
abbrev cblk (c : Dev nD) (t : Fin cfg0.N) : Vec Ideal S1x1024 .f32 := iblk m c 2 t

/-- Point `t`'s partial product at (p, r): row p of its activation block against row r of its weight block. -/
def part (c : Dev nD) (t : Fin cfg0.N) (p : Fin 2048) (r : Fin 1024) : EReal :=
  ∑ kk : Fin 1024, ablk m c t (ix2 p kk) * bblk m c t (ix2 r kk)

/-- The point before. -/
def prev (t : Fin cfg0.N) : Fin cfg0.N := ⟨t.val - 1, Nat.lt_of_le_of_lt (Nat.sub_le _ _) t.isLt⟩

theorem prev_val (t : Fin cfg0.N) : (prev t).val = t.val - 1 := rfl

/-- What the buffer holds after point `t`, as a block of extended reals. -/
abbrev held (c : Dev nD) (t : Fin cfg0.N) : Vec Ideal S2048x1024 .f32 := outsAt0 m c t.val t.isLt

/-- After a first step: zero plus the partial product. -/
theorem held_first (c : Dev nD) (t : Fin cfg0.N) (h : t.val % 4 = 0) (p : Fin 2048) (r : Fin 1024) :
    held m c t (ix2 p r) = 0 + part m c t p r := by
  have h1 : ¬t.val % 4 = 3 := by omega
  show outsAt0 m c t.val t.isLt (ix2 p r) = _
  rw [outsAt0_A m c t h h1]
  refine (congrFun (Pieces.out_A (F := Ideal) c (grid0.coords t) (ms0_0 t) (hs0_0 t) (ms0_1 t) (hs0_1 t) (ms0_2 t) (hs0_2 t) (ms0_3 t) (hs0_3 t)
    ((hcond0_0 t).mpr h) (fun hh => h1 ((hcond0_1 t).mp hh)) (iblk m c 0 t) (iblk m c 1 t) (iblk m c 2 t)) (ix2 p r)).trans ?_
  refine (Pay.step_apply (k0_pay1 (F := Ideal)) (ablk m c t) (bblk m c t) p r).trans ?_
  rw [Pay.zero_apply]
  rfl

/-- After a middle step: what the point before left, plus the partial product. -/
theorem held_middle (c : Dev nD) (t : Fin cfg0.N) (h0 : ¬t.val % 4 = 0) (h1 : ¬t.val % 4 = 3) (p : Fin 2048) (r : Fin 1024) :
    held m c t (ix2 p r) = held m c (prev t) (ix2 p r) + part m c t p r := by
  show outsAt0 m c t.val t.isLt (ix2 p r) = _
  rw [outsAt0_B m c t h0 h1]
  refine (congrFun (Pieces.out_B (F := Ideal) c (grid0.coords t) (ms0_0 t) (hs0_0 t) (ms0_1 t) (hs0_1 t) (ms0_2 t) (hs0_2 t) (ms0_3 t) (hs0_3 t)
    (fun hh => h0 ((hcond0_0 t).mp hh)) (fun hh => h1 ((hcond0_1 t).mp hh)) (iblk m c 0 t) (iblk m c 1 t) (iblk m c 2 t)
    (outsAt0 m c (t.val - 1) (Nat.lt_of_le_of_lt (Nat.sub_le _ _) t.isLt))) (ix2 p r)).trans ?_
  exact Pay.step_apply (held m c (prev t)) (ablk m c t) (bblk m c t) p r

/-- After a last step: what the point before left, plus the partial product, plus the bias block's entry. -/
theorem held_last (c : Dev nD) (t : Fin cfg0.N) (h0 : ¬t.val % 4 = 0) (h1 : t.val % 4 = 3) (p : Fin 2048) (r : Fin 1024) :
    held m c t (ix2 p r) = (held m c (prev t) (ix2 p r) + part m c t p r) + cblk m c t (ix2 (0 : Fin 1) r) := by
  show outsAt0 m c t.val t.isLt (ix2 p r) = _
  rw [outsAt0_C m c t h0 h1]
  refine (congrFun (Pieces.out_C (F := Ideal) c (grid0.coords t) (ms0_0 t) (hs0_0 t) (ms0_1 t) (hs0_1 t) (ms0_2 t) (hs0_2 t) (ms0_3 t) (hs0_3 t)
    (fun hh => h0 ((hcond0_0 t).mp hh)) ((hcond0_1 t).mpr h1) (iblk m c 0 t) (iblk m c 1 t) (iblk m c 2 t)
    (outsAt0 m c (t.val - 1) (Nat.lt_of_le_of_lt (Nat.sub_le _ _) t.isLt))) (ix2 p r)).trans ?_
  refine (Pay.bias_apply (k0_pay2 (F := Ideal) (held m c (prev t)) (ablk m c t) (bblk m c t)) (cblk m c t) p r).trans ?_
  rw [Pay.step_apply]
  rfl

/-- The four steps of one output block together: after the point with `t mod 4 = 3`. -/
theorem held_flush (c : Dev nD) (t : Fin cfg0.N) (h : t.val % 4 = 3) (p : Fin 2048) (r : Fin 1024) :
    held m c t (ix2 p r)
      = ((((0 + part m c (prev (prev (prev t))) p r) + part m c (prev (prev t)) p r) + part m c (prev t) p r) + part m c t p r)
        + cblk m c t (ix2 (0 : Fin 1) r) := by
  have e1 : (prev t).val % 4 = 2 := by rw [prev_val]; omega
  have e2 : (prev (prev t)).val % 4 = 1 := by rw [prev_val, prev_val]; omega
  have e3 : (prev (prev (prev t))).val % 4 = 0 := by rw [prev_val, prev_val, prev_val]; omega
  rw [held_last m c t (by omega) h, held_middle m c (prev t) (by omega) (by omega), held_middle m c (prev (prev t)) (by omega) (by omega),
    held_first m c (prev (prev (prev t))) e3]

end Cert.KernelIdeal.Acc

end
-- ==== Proof.Spec.lean ====
/-
  The arithmetic the two programs share. The contracted axis of length 4096 is walked by the
  kernel in four blocks of 1024: position kb * 1024 + kk. A sum over the whole axis is the sum
  over the blocks of the sums inside each block, in any commutative monoid; over the extended
  reals the kernel's running total (zero, then one block's partial product at a time, then the
  bias) is therefore the whole contraction plus the bias.
-/
import Idealize.ShloMosaic.PureOps.Ideal
import Idealize.ShloMosaic.Lib.ValueIdx
import Mathlib.Algebra.BigOperators.Fin

noncomputable section

namespace Cert.Spec

open Idealize.ShloMosaic

/-- Position `kb * 1024 + kk` of the contracted axis: entry `kk` of block `kb`. -/
def kpos (kb : Fin 4) (kk : Fin 1024) : Fin 4096 :=
  ⟨kb.val * 1024 + kk.val, by have := kb.isLt; have := kk.isLt; omega⟩

@[simp] theorem kpos_val (kb : Fin 4) (kk : Fin 1024) : (kpos kb kk).val = kb.val * 1024 + kk.val := rfl

/-- Block number and offset inside the block determine the position, and conversely. -/
def kEquiv : Fin 4 × Fin 1024 ≃ Fin 4096 where
  toFun x := kpos x.1 x.2
  invFun k := (⟨k.val / 1024, by have := k.isLt; omega⟩, ⟨k.val % 1024, by have := k.isLt; omega⟩)
  left_inv x := by
    obtain ⟨a, b⟩ := x
    have ha := a.isLt
    have hb := b.isLt
    refine Prod.ext (Fin.ext ?_) (Fin.ext ?_)
    · show (a.val * 1024 + b.val) / 1024 = a.val
      omega
    · show (a.val * 1024 + b.val) % 1024 = b.val
      omega
  right_inv k := by
    have hk := k.isLt
    refine Fin.ext ?_
    show k.val / 1024 * 1024 + k.val % 1024 = k.val
    omega

/-- A sum over the contracted axis, block by block. -/
theorem sum_blocks {M : Type} [AddCommMonoid M] (f : Fin 4096 → M) :
    ∑ k : Fin 4096, f k = ∑ kb : Fin 4, ∑ kk : Fin 1024, f (kpos kb kk) :=
  (Fintype.sum_equiv kEquiv (fun x => f (kpos x.1 x.2)) f (fun _ => rfl)).symm.trans
    (Fintype.sum_prod_type' (fun kb kk => f (kpos kb kk)))

/-- The kernel's running total is the whole contraction plus the bias: starting from zero, adding the
    four blocks' partial products in order and then the bias, is the sum over the whole axis plus the bias. -/
theorem total_eq (f : Fin 4096 → EReal) (b : EReal) :
    ((((0 + ∑ kk : Fin 1024, f (kpos 0 kk)) + ∑ kk : Fin 1024, f (kpos 1 kk)) + ∑ kk : Fin 1024, f (kpos 2 kk))
      + ∑ kk : Fin 1024, f (kpos 3 kk)) + b = (∑ k : Fin 4096, f k) + b := by
  rw [sum_blocks, Fin.sum_univ_four, zero_add]

end Cert.Spec

end
-- ==== Proof.KernelFinal.lean ====
/-
  The pallas_call's result array as one function of its three input arrays, over the extended
  reals: entry (row, col) of the [8192, 4096] result is the sum over k of A[row, k] * B[col, k]
  plus C[0, col]. Grid point t = 16 i + 4 j + k works on row block i (2048 rows), column block j
  (1024 columns) and contraction block k (1024 positions); the result block (i, j) is written
  back after the point with k = 3, when the four partial products and the bias have been added,
  and the sixteen written blocks tile the array. The program's result is that array reshaped to
  [4, 2048, 4096].
-/
import proofs.«409225_j24721831756590_1_alg».proof.Proof.KernelAcc
import proofs.«409225_j24721831756590_1_alg».proof.Proof.Spec
import Idealize.ShloMosaic.Lib.StableHlo.Run

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The three arrays the region reads, as it finds them. -/
abbrev lhsArr (c : Dev nD) : Vec Ideal S8192x4096 .bf16 := V m c main_v3
abbrev rhsArr (c : Dev nD) : Vec Ideal S4096x4096 .bf16 := V m c main_v4
abbrev biasArr (c : Dev nD) : Vec Ideal S1x4096 .f32 := V m c main_v5

/-- The linear layer: `A · Bᵀ` plus the bias row on every row. -/
def lin (A : Vec Ideal S8192x4096 .bf16) (B : Vec Ideal S4096x4096 .bf16) (C : Vec Ideal S1x4096 .f32) : Vec Ideal S8192x4096 .f32 :=
  fun j => (∑ k : Fin 4096, A (ix2 (j 0) k) * B (ix2 (j 1) k)) + C (ix2 (0 : Fin 1) (j 1))

/-- The printed index maps over the grid: point t = 16 i + 4 j + k reads blocks (i, k), (j, k), (0, j) and writes (i, j). -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- Entry (p, kk) of point t's activation block is entry (i·2048 + p, k·1024 + kk) of the array. -/
theorem ablk_apply (c : Dev nD) (t : Fin cfg0.N) (p : Fin 2048) (kk : Fin 1024) (row : Fin 8192) (col : Fin 4096)
    (hr : row.val = t.val / 16 * 2048 + p.val) (hc : col.val = t.val % 4 * 1024 + kk.val) :
    Acc.ablk m c t (ix2 p kk) = lhsArr m c (ix2 row col) := by
  obtain ⟨e0, e1, -⟩ := idx_facts t
  show ((cfg0.win 0).blk t).view.read (Elt Ideal) (V m c (Pipeline.arrRef spec0 0)) (ix2 p kk) = V m c (Pipeline.arrRef spec0 0) (ix2 row col)
  generalize V m c (Pipeline.arrRef spec0 0) = arr
  rw [View.read_apply]
  refine (cast_eq _ _).trans (congrArg arr ?_)
  funext a; apply Fin.ext
  match a with
  | ⟨0, _⟩ => show win0_0.index t (0 : Fin 2) * 2048 + 1 * p.val = row.val; omega
  | ⟨1, _⟩ => show win0_0.index t (1 : Fin 2) * 1024 + 1 * kk.val = col.val; omega

/-- Entry (r, kk) of point t's weight block is entry (j·1024 + r, k·1024 + kk) of the array. -/
theorem bblk_apply (c : Dev nD) (t : Fin cfg0.N) (r : Fin 1024) (kk : Fin 1024) (row : Fin 4096) (col : Fin 4096)
    (hr : row.val = t.val / 4 % 4 * 1024 + r.val) (hc : col.val = t.val % 4 * 1024 + kk.val) :
    Acc.bblk m c t (ix2 r kk) = rhsArr m c (ix2 row col) := by
  obtain ⟨-, -, e2, e3, -⟩ := idx_facts t
  show ((cfg0.win 1).blk t).view.read (Elt Ideal) (V m c (Pipeline.arrRef spec0 1)) (ix2 r kk) = V m c (Pipeline.arrRef spec0 1) (ix2 row col)
  generalize V m c (Pipeline.arrRef spec0 1) = arr
  rw [View.read_apply]
  refine (cast_eq _ _).trans (congrArg arr ?_)
  funext a; apply Fin.ext
  match a with
  | ⟨0, _⟩ => show win0_1.index t (0 : Fin 2) * 1024 + 1 * r.val = row.val; omega
  | ⟨1, _⟩ => show win0_1.index t (1 : Fin 2) * 1024 + 1 * kk.val = col.val; omega

/-- Entry (0, r) of point t's bias block is entry (0, j·1024 + r) of the bias row. -/
theorem cblk_apply (c : Dev nD) (t : Fin cfg0.N) (r : Fin 1024) (col : Fin 4096)
    (hc : col.val = t.val / 4 % 4 * 1024 + r.val) :
    Acc.cblk m c t (ix2 (0 : Fin 1) r) = biasArr m c (ix2 (0 : Fin 1) col) := by
  obtain ⟨-, -, -, -, e4, e5, -⟩ := idx_facts t
  show ((cfg0.win 2).blk t).view.read (Elt Ideal) (V m c (Pipeline.arrRef spec0 2)) (ix2 (0 : Fin 1) r) = V m c (Pipeline.arrRef spec0 2) (ix2 (0 : Fin 1) col)
  generalize V m c (Pipeline.arrRef spec0 2) = arr
  rw [View.read_apply]
  refine (cast_eq _ _).trans (congrArg arr ?_)
  funext a; apply Fin.ext
  match a with
  | ⟨0, _⟩ => show win0_2.index t (0 : Fin 2) * 1 + 1 * 0 = 0; omega
  | ⟨1, _⟩ => show win0_2.index t (1 : Fin 2) * 1024 + 1 * r.val = col.val; omega

/-- A point's partial product, on the arrays: contraction block kb of the row and the column. -/
theorem part_eq (c : Dev nD) (u : Fin cfg0.N) (p : Fin 2048) (r : Fin 1024) (row : Fin 8192) (col : Fin 4096) (kb : Fin 4)
    (hr : row.val = u.val / 16 * 2048 + p.val) (hc : col.val = u.val / 4 % 4 * 1024 + r.val) (hk : u.val % 4 = kb.val) :
    Acc.part m c u p r = ∑ kk : Fin 1024, lhsArr m c (ix2 row (Spec.kpos kb kk)) * rhsArr m c (ix2 col (Spec.kpos kb kk)) := by
  unfold Acc.part
  refine Finset.sum_congr rfl fun kk _ => ?_
  rw [ablk_apply m c u p kk row (Spec.kpos kb kk) hr (by rw [Spec.kpos_val, hk]),
    bblk_apply m c u r kk col (Spec.kpos kb kk) hc (by rw [Spec.kpos_val, hk])]

/-- After the last reduction step of its block, the staging buffer's entry (p, r) is the layer's entry (i·2048 + p, j·1024 + r). -/
theorem held_eq_lin (c : Dev nD) (t : Fin cfg0.N) (h3 : t.val % 4 = 3) (p : Fin 2048) (r : Fin 1024) (row : Fin 8192) (col : Fin 4096)
    (hr : row.val = t.val / 16 * 2048 + p.val) (hc : col.val = t.val / 4 % 4 * 1024 + r.val) :
    Acc.held m c t (ix2 p r) = lin (lhsArr m c) (rhsArr m c) (biasArr m c) (ix2 row col) := by
  have v1 : (Acc.prev t).val = t.val - 1 := rfl
  have v2 : (Acc.prev (Acc.prev t)).val = t.val - 1 - 1 := rfl
  have v3 : (Acc.prev (Acc.prev (Acc.prev t))).val = t.val - 1 - 1 - 1 := rfl
  rw [Acc.held_flush m c t h3 p r,
    part_eq m c (Acc.prev (Acc.prev (Acc.prev t))) p r row col 0 (by rw [v3]; omega) (by rw [v3]; omega) (by rw [v3]; show _ = 0; omega),
    part_eq m c (Acc.prev (Acc.prev t)) p r row col 1 (by rw [v2]; omega) (by rw [v2]; omega) (by rw [v2]; show _ = 1; omega),
    part_eq m c (Acc.prev t) p r row col 2 (by rw [v1]; omega) (by rw [v1]; omega) (by rw [v1]; show _ = 2; omega),
    part_eq m c t p r row col 3 hr hc (by show _ = 3; omega),
    cblk_apply m c t r col hc]
  exact Spec.total_eq (fun k => lhsArr m c (ix2 row k) * rhsArr m c (ix2 col k)) (biasArr m c (ix2 (0 : Fin 1) col))

/-- The result window's blocks all lie inside the array: what is written back is the whole staging block. -/
theorem cut_id (t : Fin cfg0.N) (X : Vec Ideal S2048x1024 .f32) : (cfg0.win 3).cut (grid0.coords t) X = X := rfl

/-- What a flushing point writes back is its block of the layer. -/
theorem flushed_eq (c : Dev nD) (t : Fin cfg0.N) (hf : (cfg0.win 3).flush t = true) :
    (dats m 0 c).flushed 3 t = ((cfg0.win 3).blk t).view.read (Elt Ideal) (lin (lhsArr m c) (rhsArr m c) (biasArr m c)) := by
  have h3 : t.val % 4 = 3 := (flush0_3 t).mp hf
  obtain ⟨-, -, -, -, -, -, e6, e7⟩ := idx_facts t
  show (cfg0.win 3).cut (grid0.coords t) ((dats m 0 c).after 3 t) = _
  rw [after0_3, cut_id]
  funext j
  rw [View.read_apply]
  refine Eq.trans ?_ (cast_eq _ _).symm
  refine (congrArg (Acc.held m c t) (eq_ix2 j)).trans ?_
  refine (held_eq_lin m c t h3 (j 0) (j 1) ((((cfg0.win 3).blk t).view.emb j) 0) ((((cfg0.win 3).blk t).view.emb j) 1) ?_ ?_).trans
    (congrArg (lin (lhsArr m c) (rhsArr m c) (biasArr m c)) (eq_ix2 (((cfg0.win 3).blk t).view.emb j)).symm)
  · show win0_3.index t (0 : Fin 2) * 2048 + 1 * (j 0).val = _; omega
  · show win0_3.index t (1 : Fin 2) * 1024 + 1 * (j 1).val = _; omega

/-- An entry of the array lies in point t's result block iff each coordinate lies in the block's range. -/
theorem mem_blk (t : Fin cfg0.N) (i : S8192x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v6).slice (win0_3.rect t)).set ↔ _
  rw [View.set_slice_whole, Rect.mem_set_unit]
  exact Iff.rfl

/-- The result array after the run is the layer of the three input arrays: every entry lies in the block of the
    flushing point of its row block and column block. -/
theorem final (c : Dev nD) : (dats m 0 c).arrAt 3 cfg0.N = lin (lhsArr m c) (rhsArr m c) (biasArr m c) :=
  (dats m 0 c).arrAt_eq_of_cover 3 (lin (lhsArr m c) (rhsArr m c) (biasArr m c)) (fun t hf => flushed_eq m c t hf) fun i => by
    have h0 : (i 0).val < 8192 := idx2_lt0 i
    have h1 : (i 1).val < 4096 := idx2_lt1 i
    have hN : cfg0.N = 64 := N_0
    let t : Fin cfg0.N := ⟨(i 0).val / 2048 * 16 + (i 1).val / 1024 * 4 + 3, by rw [hN]; omega⟩
    have ht : t.val = (i 0).val / 2048 * 16 + (i 1).val / 1024 * 4 + 3 := rfl
    obtain ⟨-, -, -, -, -, -, e6, e7⟩ := idx_facts t
    refine ⟨t, (flush0_3 t).mpr (by rw [ht]; omega), ?_⟩
    rw [mem_blk]
    intro a
    match a with
    | ⟨0, _⟩ =>
      show win0_3.index t (0 : Fin 2) * 2048 ≤ (i 0).val ∧ (i 0).val < win0_3.index t (0 : Fin 2) * 2048 + 2048
      rw [e6, ht]; omega
    | ⟨1, _⟩ =>
      show win0_3.index t (1 : Fin 2) * 1024 ≤ (i 1).val ∧ (i 1).val < win0_3.index t (1 : Fin 2) * 1024 + 1024
      rw [e7, ht]; omega

/-- The program's result: the layer of the region's input arrays, reshaped to [4, 2048, 4096]. -/
theorem tail_eq (c : Dev nD) :
    Pipeline.afterTail₀ cfgs (dats m) 0 (V0 m) [hostOps1] c main_v7
      = shapeCast S4x2048x4096 (lin (lhsArr m c) (rhsArr m c) (biasArr m c)) shapeCasts_S8192x4096_S4x2048x4096 := by
  unfold Pipeline.afterTail₀
  show StableHlo.after hostOps1 _ (Proc.devRef .tc main_v7) = _
  after_results
  refine congrArg (fun x => shapeCast S4x2048x4096 x shapeCasts_S8192x4096_S4x2048x4096) ?_
  exact (Pipeline.withArrays_arr spec0 launch0.win.arr_inj c _ _ 3).trans (final m c)

/-- The run, read: the result at the reshaped layer, the arguments unchanged. -/
theorem run : θ_run defs (onTc (τ := τ) (main (F := Ideal))) ⟨m, fun _ => 0, ρ⟩ fun r => ∀ c : Dev nD,
      r.2.mem ((c.tc : Thread nD τ).loc main_v7) = shapeCast S4x2048x4096 (lin (lhsArr m c) (rhsArr m c) (biasArr m c)) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.KernelHost.lean ====
/-
  What the pallas_call's three input arrays hold when the region is entered, as terms of the
  program's arguments: the activations reshaped [4,2048,4096] -> [8192,4096], the dequantised
  weight (the take of the codebook rows, reshaped to [4096,4096]) and the bias as a [1,4096] row.
-/
import proofs.«409225_j24721831756590_1_alg».proof.Proof.Gen.KernelIdeal.Frame
import Idealize.ShloMosaic.Lib.StableHlo.Run

noncomputable section

namespace Cert.KernelIdeal.Host

open Cert.KernelIdeal Cert.KernelIdeal.Gen Idealize.ShloMosaic Idealize.ShloMosaic.TcCoe Idealize.SL.Sem

variable {F : FTy → Type} [FloatOps F]

/-- numpy's negative-index rule on the index words: idx + 256 where idx < 0, else idx. -/
def wrapped (idx : (⟨S2097152, .i32⟩ : BufTy).Contents (Elt F)) : (⟨S2097152, .i32⟩ : BufTy).Contents (Elt F) :=
  select (cmpi .slt idx (broadcastInDim S2097152 ![] bcast_S_S2097152 (constantI S_ 32 0#32)))
    (addi idx (broadcastInDim S2097152 ![] bcast_S_S2097152 (constantI S_ 32 256#32))) idx

/-- The gather's start indices: the wrapped words as a column. -/
def starts (idx : (⟨S2097152, .i32⟩ : BufTy).Contents (Elt F)) : (⟨S2097152x1, .i32⟩ : BufTy).Contents (Elt F) :=
  broadcastInDim S2097152x1 ![0] bcast_S2097152_S2097152x1_0 (wrapped (F := F) idx)

/-- Row by row: is the wrapped index inside [0, 255]? -/
def inRange (idx : (⟨S2097152, .i32⟩ : BufTy).Contents (Elt F)) : (⟨S2097152, .i1⟩ : BufTy).Contents (Elt F) :=
  Host.reduce IntOp.andi
    (andi (cmpi .sge (starts (F := F) idx) (broadcastInDim S2097152x1 ![] bcast_S_S2097152x1 (constantI S_ 32 0#32)))
      (cmpi .sle (starts (F := F) idx) (broadcastInDim S2097152x1 ![0, 1] bcast_S1x1_S2097152x1_0_1 (broadcastInDim S1x1 ![1] bcast_S1_S1x1_1 (constantI S1 32 255#32)))))
    (constantI S_ 1 1#1) reducesTo_S2097152x1_S2097152_d1 h_S_

/-- The rows the codebook gather reads (clamped starts). -/
def gathered (cb : (⟨S256x8, .f32⟩ : BufTy).Contents (Elt F)) (idx : (⟨S2097152, .i32⟩ : BufTy).Contents (Elt F)) : (⟨S2097152x8, .f32⟩ : BufTy).Contents (Elt F) :=
  Host.gather gather_S256x8_S2097152x1_S2097152x8_1_0_n_n_0_1_18 cb (starts (F := F) idx)

/-- The take in fill mode: the gathered row where the index is in range, the fill word elsewhere. -/
def taken (cb : (⟨S256x8, .f32⟩ : BufTy).Contents (Elt F)) (idx : (⟨S2097152, .i32⟩ : BufTy).Contents (Elt F)) : (⟨S2097152x8, .f32⟩ : BufTy).Contents (Elt F) :=
  select (broadcastInDim S2097152x8 ![0] bcast_S2097152_S2097152x8_0 (inRange (F := F) idx)) (gathered cb idx)
    (broadcastInDim S2097152x8 ![] bcast_S_S2097152x8 (constant S_ .f32 0x7FC00000#32))

variable (F) in
/-- The take's 23 host operations on their buffers, each applied directly to its operands' contents. -/
abbrev takeOps : List (HloOp τ sig (Elt F)) :=
  [ StableHlo.nullary main_call0_c (constantI S_ 32 0#32),
    StableHlo.unary main_call0_c main_call0_v0 (broadcastInDim S2097152 ![] bcast_S_S2097152 : (⟨S_, .i32⟩ : BufTy).Contents (Elt F) → (⟨S2097152, .i32⟩ : BufTy).Contents (Elt F)),
    StableHlo.binary main_arg1 main_call0_v0 main_call0_v1 (cmpi .slt : (⟨S2097152, .i32⟩ : BufTy).Contents (Elt F) → (⟨S2097152, .i32⟩ : BufTy).Contents (Elt F) → (⟨S2097152, .i1⟩ : BufTy).Contents (Elt F)),
    StableHlo.nullary main_call0_c_0 (constantI S_ 32 256#32),
    StableHlo.unary main_call0_c_0 main_call0_v2 (broadcastInDim S2097152 ![] bcast_S_S2097152 : (⟨S_, .i32⟩ : BufTy).Contents (Elt F) → (⟨S2097152, .i32⟩ : BufTy).Contents (Elt F)),
    StableHlo.binary main_arg1 main_call0_v2 main_call0_v3 (addi : (⟨S2097152, .i32⟩ : BufTy).Contents (Elt F) → (⟨S2097152, .i32⟩ : BufTy).Contents (Elt F) → (⟨S2097152, .i32⟩ : BufTy).Contents (Elt F)),
    StableHlo.ternary main_call0_v1 main_call0_v3 main_arg1 main_call0_v4 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_call0_v4 main_call0_v5 (broadcastInDim S2097152x1 ![0] bcast_S2097152_S2097152x1_0 : (⟨S2097152, .i32⟩ : BufTy).Contents (Elt F) → (⟨S2097152x1, .i32⟩ : BufTy).Contents (Elt F)),
    StableHlo.nullary main_call0_c_1 (constantI S1 32 255#32),
    StableHlo.nullary main_call0_c_2 (constantI S_ 32 0#32),
    StableHlo.unary main_call0_c_2 main_call0_v6 (broadcastInDim S2097152x1 ![] bcast_S_S2097152x1 : (⟨S_, .i32⟩ : BufTy).Contents (Elt F) → (⟨S2097152x1, .i32⟩ : BufTy).Contents (Elt F)),
    StableHlo.binary main_call0_v5 main_call0_v6 main_call0_v7 (cmpi .sge : (⟨S2097152x1, .i32⟩ : BufTy).Contents (Elt F) → (⟨S2097152x1, .i32⟩ : BufTy).Contents (Elt F) → (⟨S2097152x1, .i1⟩ : BufTy).Contents (Elt F)),
    StableHlo.unary main_call0_c_1 main_call0_v8 (broadcastInDim S1x1 ![1] bcast_S1_S1x1_1 : (⟨S1, .i32⟩ : BufTy).Contents (Elt F) → (⟨S1x1, .i32⟩ : BufTy).Contents (Elt F)),
    StableHlo.unary main_call0_v8 main_call0_v9 (broadcastInDim S2097152x1 ![0, 1] bcast_S1x1_S2097152x1_0_1 : (⟨S1x1, .i32⟩ : BufTy).Contents (Elt F) → (⟨S2097152x1, .i32⟩ : BufTy).Contents (Elt F)),
    StableHlo.binary main_call0_v5 main_call0_v9 main_call0_v10 (cmpi .sle : (⟨S2097152x1, .i32⟩ : BufTy).Contents (Elt F) → (⟨S2097152x1, .i32⟩ : BufTy).Contents (Elt F) → (⟨S2097152x1, .i1⟩ : BufTy).Contents (Elt F)),
    StableHlo.binary main_call0_v7 main_call0_v10 main_call0_v11 (andi : (⟨S2097152x1, .i1⟩ : BufTy).Contents (Elt F) → (⟨S2097152x1, .i1⟩ : BufTy).Contents (Elt F) → (⟨S2097152x1, .i1⟩ : BufTy).Contents (Elt F)),
    StableHlo.nullary main_call0_c_3 (constantI S_ 1 1#1),
    StableHlo.binary main_call0_v11 main_call0_c_3 main_call0_v12 ((fun x v => Host.reduce IntOp.andi x v reducesTo_S2097152x1_S2097152_d1 h_S_) : (⟨S2097152x1, .i1⟩ : BufTy).Contents (Elt F) → (⟨S_, .i1⟩ : BufTy).Contents (Elt F) → (⟨S2097152, .i1⟩ : BufTy).Contents (Elt F)),
    StableHlo.binary main_arg2 main_call0_v5 main_call0_v13 ((fun x i => Host.gather gather_S256x8_S2097152x1_S2097152x8_1_0_n_n_0_1_18 x i) : (⟨S256x8, .f32⟩ : BufTy).Contents (Elt F) → (⟨S2097152x1, .i32⟩ : BufTy).Contents (Elt F) → (⟨S2097152x8, .f32⟩ : BufTy).Contents (Elt F)),
    StableHlo.unary main_call0_v12 main_call0_v14 (broadcastInDim S2097152x8 ![0] bcast_S2097152_S2097152x8_0 : (⟨S2097152, .i1⟩ : BufTy).Contents (Elt F) → (⟨S2097152x8, .i1⟩ : BufTy).Contents (Elt F)),
    StableHlo.nullary main_call0_cst (constant S_ .f32 0x7FC00000#32),
    StableHlo.unary main_call0_cst main_call0_v15 (broadcastInDim S2097152x8 ![] bcast_S_S2097152x8 : (⟨S_, .f32⟩ : BufTy).Contents (Elt F) → (⟨S2097152x8, .f32⟩ : BufTy).Contents (Elt F)),
    StableHlo.ternary main_call0_v14 main_call0_v13 main_call0_v15 main_v0 (select : (⟨S2097152x8, .i1⟩ : BufTy).Contents (Elt F) → (⟨S2097152x8, .f32⟩ : BufTy).Contents (Elt F) → (⟨S2097152x8, .f32⟩ : BufTy).Contents (Elt F) → (⟨S2097152x8, .f32⟩ : BufTy).Contents (Elt F)) ]

/-- They are the program's operations, one by one: a typed reference to a literal buffer moves contents by the identity. -/
theorem hostOps0_eq : (hostOps0 : List (HloOp τ sig (Elt F))) = takeOps F := by
  unfold hostOps0 takeOps
  dsimp only [StableHlo.TRef.nullary, StableHlo.TRef.unary, StableHlo.TRef.binary, StableHlo.TRef.ternary, StableHlo.TRef.toBuf,
    StableHlo.TRef.ofBuf, cast_eq]
  iterate 23 (refine congrArg₂ List.cons rfl ?_)
  rfl

variable (m : (ℓ : Loc nD τ sig) → Buf (Elt F) ℓ)

/-- The left operand's array: the activations as [8192, 4096], narrowed. -/
theorem V_lhs (c : Dev nD) : (V m c main_v3 : (⟨S8192x4096, .bf16⟩ : BufTy).Contents (Elt F))
    = truncf .bf16 (shapeCast S8192x4096 (m ((c : Thread nD τ).loc main_arg0)) shapeCasts_S4x2048x4096_S8192x4096) bitsLt_bf16_f32 := by
  dsimp only [Gen.V, Gen.V0]
  simp only [Gen.hostOps0, Gen.hostOps0_1, List.flatten_cons, List.flatten_nil, List.append_nil, List.cons_append, List.nil_append]
  after_results
  rfl

set_option maxHeartbeats 3200000 in
/-- The right operand's array: the taken codebook rows as [4096, 4096], narrowed. -/
theorem V_rhs (c : Dev nD) : (V m c main_v4 : (⟨S4096x4096, .bf16⟩ : BufTy).Contents (Elt F))
    = truncf .bf16 (shapeCast S4096x4096 (taken (F := F) (m ((c : Thread nD τ).loc main_arg2)) (m ((c : Thread nD τ).loc main_arg1))) shapeCasts_S2097152x8_S4096x4096) bitsLt_bf16_f32 := by
  dsimp only [Gen.V, Gen.V0]
  rw [hostOps0_eq]
  simp only [takeOps, Gen.hostOps0_1, List.flatten_cons, List.flatten_nil, List.append_nil, List.cons_append, List.nil_append]
  after_results
  rfl

/-- The bias operand's array: the bias as one row. -/
theorem V_bias (c : Dev nD) : (V m c main_v5 : (⟨S1x4096, .f32⟩ : BufTy).Contents (Elt F))
    = shapeCast S1x4096 (m ((c : Thread nD τ).loc main_arg3)) shapeCasts_S4096_S1x4096 := by
  dsimp only [Gen.V, Gen.V0]
  simp only [Gen.hostOps0, Gen.hostOps0_1, List.flatten_cons, List.flatten_nil, List.append_nil, List.cons_append, List.nil_append]
  after_results
  rfl

end Cert.KernelIdeal.Host

end
-- ==== Proof.LibReduceAnd.lean ====
/-
  A REDUCTION BY `and` OF ONES IS ONE.

  A one-operand `stablehlo.reduce` of a one-bit array by `and`, from an initial value that is 1, is 1 at every result
  index all of whose contributing operand elements are 1 — the converse of the library's reading of `jnp.all`
  (Lib/ReduceAll.lean), which goes from the result to the elements.
-/
import Idealize.ShloMosaic.Lib.ReduceAll

namespace Idealize.ShloMosaic

namespace IntOp

/-- A left fold by `and` from 1 over one-bit words that are all 1 is 1. -/
theorem foldl_andi_of_all {ι : Type} (f : ι → BitVec 1) :
    ∀ (l : List ι), (∀ n ∈ l, f n = 1#1) → l.foldl (fun r n => andi r (f n)) 1#1 = 1#1
  | [], _ => rfl
  | a :: l, h => by
    rw [List.foldl_cons, h a (List.mem_cons_self ..)]
    exact foldl_andi_of_all f l fun n hn => h n (List.mem_cons_of_mem _ hn)

end IntOp

namespace Host

variable {s t u : Shape} {axes : List (Fin s.rank)}

/-- A `stablehlo.reduce` by `and` from an initial 1 is 1 at `j` when every operand element that reduces into `j` is 1. -/
theorem reduce_andi_of_all (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  rw [Host.reduce_eq_foldl, hinit]
  refine IntOp.foldl_andi_of_all x _ fun i hi => ?_
  rw [List.mem_filter] at hi
  exact hx i (by simpa using hi.2)

end Host

end Idealize.ShloMosaic
-- ==== Proof.Mask.lean ====
/-
  The index range and the take's mask. The statement admits index words whose signed reading
  lies in [-256, 256): exactly the indices numpy accepts for an axis of 256 rows. On those the
  negative-index rule (idx + 256 where idx < 0) lands in [0, 255], so the take's in-range test is
  true on every row and the take returns the gathered codebook row everywhere: the fill word is
  never selected.
-/
import proofs.«409225_j24721831756590_1_alg».proof.Proof.KernelHost
import proofs.«409225_j24721831756590_1_alg».proof.Proof.LibReduceAnd
import proofs.«409225_j24721831756590_1_alg».proof.Pre_finite_inputs
import Idealize.ShloMosaic.Lib.ValueIdx
import Idealize.ShloMosaic.Lib.Pipeline.Value

noncomputable section

namespace Cert.KernelIdeal.Mask

open Cert.KernelIdeal Cert.KernelIdeal.Gen Idealize.ShloMosaic

variable {F : FTy → Type} [FloatOps F]

/-- The admitted index words: signed reading in [-256, 256). -/
def InDomain (idx : IVec S2097152 32) : Prop := ∀ i : S2097152.Idx, -256 ≤ (idx i).toInt ∧ (idx i).toInt < 256

instance : Subsingleton Cert.Pre_finite_inputs.S_.Idx := ⟨fun a b => funext fun d => d.elim0⟩

theorem toInt_m256 : (4294967040#32 : BitVec 32).toInt = -256 := by decide
theorem toInt_256 : (256#32 : BitVec 32).toInt = 256 := by decide
theorem toInt_255 : (255#32 : BitVec 32).toInt = 255 := by decide
theorem toInt_0 : (0#32 : BitVec 32).toInt = 0 := by decide

/-- The printed precondition's last conjunct, read back: every index word is admitted. -/
theorem inDomain_of_pre [Cert.Pre_finite_inputs.Facts] (x0 : FVec F Cert.Pre_finite_inputs.S4x2048x4096 .f32)
    (idx : IVec Cert.Pre_finite_inputs.S2097152 32) (x2 : FVec F Cert.Pre_finite_inputs.S256x8 .f32) (x3 : FVec F Cert.Pre_finite_inputs.S4096 .f32)
    (h : Cert.Pre_finite_inputs.fn (F := F) x0 idx x2 x3 = fun _ => 1#1) : InDomain idx := by
  have h0 := congrFun h ValueIdx.ix0
  dsimp only [Cert.Pre_finite_inputs.fn, Cert.Pre_finite_inputs.fn_part1] at h0
  obtain ⟨-, h1⟩ := IntOp.andi_eq_one.1 h0
  intro i
  have h2 := Host.reduce_andi_all _ _ _ _ ValueIdx.ix0 h1 i
  obtain ⟨hge, hlt⟩ := IntOp.andi_eq_one.1 h2
  have a : (4294967040#32 : BitVec 32).toInt ≤ (idx i).toInt := IntOp.cmpi_sge.1 hge
  have b : (idx i).toInt < (256#32 : BitVec 32).toInt := IntOp.cmpi_slt.1 hlt
  rw [toInt_m256] at a
  rw [toInt_256] at b
  exact ⟨a, b⟩

/-- Adding 256 to a word read in [-256, 0) does not wrap. -/
theorem toInt_add_256 (x : BitVec 32) (h1 : -256 ≤ x.toInt) (h2 : x.toInt < 0) : (x + 256#32).toInt = x.toInt + 256 := by
  rw [BitVec.toInt_add, toInt_256]
  exact Int.bmod_eq_of_le (by omega) (by omega)

/-- The negative-index rule on one admitted word lands in [0, 255]. -/
theorem wrap_word (x : BitVec 32) (h1 : -256 ≤ x.toInt) (h2 : x.toInt < 256) :
    0 ≤ (Scalar.select (IntOp.cmpi .slt x 0#32) (IntOp.addi x 256#32) x).toInt
      ∧ (Scalar.select (IntOp.cmpi .slt x 0#32) (IntOp.addi x 256#32) x).toInt ≤ 255 := by
  by_cases hneg : x.toInt < 0
  · have hc : IntOp.cmpi .slt x 0#32 = 1#1 := IntOp.cmpi_slt.2 (by rw [toInt_0]; exact hneg)
    have e : Scalar.select (IntOp.cmpi .slt x 0#32) (IntOp.addi x 256#32) x = x + 256#32 := by
      unfold Scalar.select; exact if_pos hc
    rw [e, toInt_add_256 x h1 hneg]; omega
  · have hc : ¬IntOp.cmpi .slt x 0#32 = 1#1 := fun hh => hneg (by have := IntOp.cmpi_slt.1 hh; rwa [toInt_0] at this)
    have e : Scalar.select (IntOp.cmpi .slt x 0#32) (IntOp.addi x 256#32) x = x := by
      unfold Scalar.select; exact if_neg hc
    rw [e]; omega

/-- The wrapped index of an admitted index array is in [0, 255] at every position. -/
theorem wrapped_range (idx : IVec S2097152 32) (h : InDomain idx) (i : S2097152.Idx) :
    0 ≤ (Host.wrapped (F := F) idx i).toInt ∧ (Host.wrapped (F := F) idx i).toInt ≤ 255 :=
  wrap_word (idx i) (h i).1 (h i).2

/-- The start-index column at row j is the wrapped index of position j. -/
theorem starts_apply (idx : IVec S2097152 32) (j : S2097152x1.Idx) :
    Host.starts (F := F) idx j = Host.wrapped (F := F) idx (ValueIdx.ix1 (j 0)) := by
  unfold Host.starts
  exact broadcastInDim_apply _ bcast_S2097152_S2097152x1_0 _ j (ValueIdx.ix1 (j 0)) (fun a => match a with
    | ⟨0, _⟩ => by show (j 0).val = if (2097152 : Nat) = 1 then 0 else (j 0).val; rw [if_neg (by decide)])

/-- On admitted indices the take's in-range test holds on every row. -/
theorem inRange_one (idx : IVec S2097152 32) (h : InDomain idx) (r : S2097152.Idx) : Host.inRange (F := F) idx r = 1#1 := by
  unfold Host.inRange
  refine Host.reduce_andi_of_all _ _ _ _ r rfl fun j _ => ?_
  obtain ⟨w0, w1⟩ := wrapped_range (F := F) idx h (ValueIdx.ix1 (j 0))
  refine IntOp.andi_eq_one.2 ⟨IntOp.cmpi_sge.2 ?_, IntOp.cmpi_sle.2 ?_⟩
  · show (0#32 : BitVec 32).toInt ≤ (Host.starts (F := F) idx j).toInt
    rw [starts_apply, toInt_0]; exact w0
  · show (Host.starts (F := F) idx j).toInt ≤ (255#32 : BitVec 32).toInt
    rw [starts_apply, toInt_255]; exact w1

/-- So the take is the plain gather: the fill word is selected nowhere. -/
theorem taken_eq_gathered (cb : FVec F S256x8 .f32) (idx : IVec S2097152 32) (h : InDomain idx) :
    Host.taken (F := F) cb idx = Host.gathered (F := F) cb idx := by
  funext j
  unfold Host.taken
  have e : broadcastInDim S2097152x8 ![0] bcast_S2097152_S2097152x8_0 (Host.inRange (F := F) idx) j = 1#1 :=
    inRange_one (F := F) idx h _
  show Scalar.select (broadcastInDim S2097152x8 ![0] bcast_S2097152_S2097152x8_0 (Host.inRange (F := F) idx) j) (Host.gathered (F := F) cb idx j) _ = _
  rw [e]
  exact if_pos rfl

end Cert.KernelIdeal.Mask

end
-- ==== Proof.Layer.lean ====
/-
  The linear layer both programs compute, as ONE function of the activations x [4, 2048, 4096],
  a weight table W [4096, 4096] and the bias [4096], over the extended reals:
      out[b, s, o] = (sum over k of x[b, s, k] * W[o, k]) + bias[o].
  Also the re-layings the two programs apply, read at an index: [4, 2048, 4096] <-> [8192, 4096]
  by rows (row b * 2048 + s), [4096] -> [1, 4096], and the dequantised table [2097152, 8] ->
  [4096, 4096] (flat position o * 4096 + k = 8 * row + lane), directly or through the flat vector.
-/
import Idealize.ShloMosaic.PureOps.Ideal
import Idealize.ShloMosaic.Lib.ValueIdx
import Idealize.ShloMosaic.Lib.Pipeline.Value

noncomputable section

namespace Cert.Layer

open Idealize.ShloMosaic Idealize.ShloMosaic.ValueIdx

abbrev Sx : Shape := ⟨3, ![4, 2048, 4096]⟩
abbrev Sr : Shape := ⟨2, ![8192, 4096]⟩
abbrev Sw : Shape := ⟨2, ![4096, 4096]⟩
abbrev Sb : Shape := ⟨1, ![4096]⟩
abbrev Sb2 : Shape := ⟨2, ![1, 4096]⟩
abbrev Sg : Shape := ⟨2, ![2097152, 8]⟩
abbrev Sflat : Shape := ⟨1, ![16777216]⟩

/-- `x · Wᵀ + bias`, entry by entry. -/
def layer (x : Sx.Idx → EReal) (W : Sw.Idx → EReal) (bias : Sb.Idx → EReal) : Sx.Idx → EReal :=
  fun i => (∑ k : Fin 4096, x (ix3 (i 0) (i 1) k) * W (ix2 (i 2) k)) + bias (ix1 (i 2))

/-- Row `b * 2048 + s` of the [8192, 4096] view. -/
def rowOf (b : Fin 4) (s : Fin 2048) : Fin 8192 := ⟨b.val * 2048 + s.val, by have := b.isLt; have := s.isLt; omega⟩

/-- Entry (b * 2048 + s, k) of the activations viewed as [8192, 4096] is entry (b, s, k). -/
theorem rows_apply {α : Type} (x : Sx.Idx → α) (h : Sx.ShapeCasts Sr) (b : Fin 4) (s : Fin 2048) (k : Fin 4096) :
    shapeCast Sr x h (ix2 (rowOf b s) k) = x (ix3 b s k) :=
  shapeCast_apply x h (ix2 (rowOf b s) k) (ix3 b s k) (by
    rewrite [Shape.rowMajor_val_three, Shape.rowMajor_val_two]
    show (b.val * 2048 + s.val) * 4096 + k.val = (b.val * 2048 + s.val) * 4096 + k.val
    rfl)

/-- Entry (b, s, o) of an [8192, 4096] array viewed as [4, 2048, 4096] is entry (b * 2048 + s, o). -/
theorem unrows_apply {α : Type} (y : Sr.Idx → α) (h : Sr.ShapeCasts Sx) (b : Fin 4) (s : Fin 2048) (o : Fin 4096) :
    shapeCast Sx y h (ix3 b s o) = y (ix2 (rowOf b s) o) :=
  shapeCast_apply y h (ix3 b s o) (ix2 (rowOf b s) o) (by
    rewrite [Shape.rowMajor_val_three, Shape.rowMajor_val_two]
    show (b.val * 2048 + s.val) * 4096 + o.val = (b.val * 2048 + s.val) * 4096 + o.val
    rfl)

/-- Entry (0, o) of the bias viewed as one row is entry o. -/
theorem biasRow_apply {α : Type} (v : Sb.Idx → α) (h : Sb.ShapeCasts Sb2) (o : Fin 4096) :
    shapeCast Sb2 v h (ix2 (0 : Fin 1) o) = v (ix1 o) :=
  shapeCast_apply v h (ix2 (0 : Fin 1) o) (ix1 o) (by
    rewrite [Shape.rowMajor_val_one, Shape.rowMajor_val_two]
    show o.val = 0 * 4096 + o.val
    omega)

/-- Where entry (o, k) of the weight sits in the table of gathered rows: row (o·4096 + k) / 8, lane (o·4096 + k) mod 8. -/
def cell (o k : Fin 4096) : Sg.Idx :=
  ix2 (⟨(o.val * 4096 + k.val) / 8, by have := o.isLt; have := k.isLt; omega⟩ : Fin 2097152)
    (⟨(o.val * 4096 + k.val) % 8, by omega⟩ : Fin 8)

/-- The table of gathered rows viewed directly as [4096, 4096]. -/
theorem table_apply {α : Type} (g : Sg.Idx → α) (h : Sg.ShapeCasts Sw) (o k : Fin 4096) :
    shapeCast Sw g h (ix2 o k) = g (cell o k) :=
  shapeCast_apply g h (ix2 o k) (cell o k) (by
    rewrite [Shape.rowMajor_val_two, Shape.rowMajor_val_two]
    show (o.val * 4096 + k.val) / 8 * 8 + (o.val * 4096 + k.val) % 8 = o.val * 4096 + k.val
    omega)

/-- The same through the flat vector of 16777216 entries. -/
theorem table_flat_apply {α : Type} (g : Sg.Idx → α) (h1 : Sg.ShapeCasts Sflat) (h2 : Sflat.ShapeCasts Sw) (o k : Fin 4096) :
    shapeCast Sw (shapeCast Sflat g h1) h2 (ix2 o k) = g (cell o k) := by
  have hlt : o.val * 4096 + k.val < 16777216 := by have := o.isLt; have := k.isLt; omega
  rw [shapeCast_apply (shapeCast Sflat g h1) h2 (ix2 o k) (ix1 (⟨o.val * 4096 + k.val, hlt⟩ : Fin 16777216)) (by
    rewrite [Shape.rowMajor_val_one, Shape.rowMajor_val_two]
    show o.val * 4096 + k.val = o.val * 4096 + k.val
    rfl)]
  exact shapeCast_apply g h1 (ix1 (⟨o.val * 4096 + k.val, hlt⟩ : Fin 16777216)) (cell o k) (by
    rewrite [Shape.rowMajor_val_two, Shape.rowMajor_val_one]
    show (o.val * 4096 + k.val) / 8 * 8 + (o.val * 4096 + k.val) % 8 = o.val * 4096 + k.val
    omega)

end Cert.Layer

end
-- ==== Proof.KernelBridge.lean ====
/-
  The kernel's result, in terms of the program's arguments. The region's three arrays are the
  activations re-laid as [8192, 4096], the taken codebook rows re-laid as [4096, 4096] and the
  bias as a row (narrowing to bf16 is the identity over the extended reals), so the reshaped
  layer of those arrays is the layer of the activations, that weight table and the bias; and on
  admitted indices the taken rows are the gathered rows.
-/
import proofs.«409225_j24721831756590_1_alg».proof.Proof.KernelFinal
import proofs.«409225_j24721831756590_1_alg».proof.Proof.KernelHost
import proofs.«409225_j24721831756590_1_alg».proof.Proof.Mask
import proofs.«409225_j24721831756590_1_alg».proof.Proof.Layer

noncomputable section

namespace Cert.KernelIdeal.Bridge

open Cert.KernelIdeal Cert.KernelIdeal.Gen Idealize.ShloMosaic Idealize.ShloMosaic.TcCoe Idealize.SL.Sem
open Idealize.ShloMosaic.ValueIdx

/-- The reshaped layer of the re-laid arrays is the layer of the arguments. -/
theorem lin_eq_layer (x : (⟨S4x2048x4096, .f32⟩ : BufTy).Contents (Elt Ideal)) (g : (⟨S2097152x8, .f32⟩ : BufTy).Contents (Elt Ideal)) (bias : (⟨S4096, .f32⟩ : BufTy).Contents (Elt Ideal)) :
    shapeCast S4x2048x4096 (Final.lin
        (truncf (F := Ideal) .bf16 (shapeCast S8192x4096 x shapeCasts_S4x2048x4096_S8192x4096) bitsLt_bf16_f32)
        (truncf (F := Ideal) .bf16 (shapeCast S4096x4096 g shapeCasts_S2097152x8_S4096x4096) bitsLt_bf16_f32)
        (shapeCast S1x4096 bias shapeCasts_S4096_S1x4096)) shapeCasts_S8192x4096_S4x2048x4096
      = Cert.Layer.layer x (shapeCast S4096x4096 g shapeCasts_S2097152x8_S4096x4096) bias := by
  funext i
  obtain ⟨b, s, o, rfl⟩ : ∃ (b : Fin 4) (s : Fin 2048) (o : Fin 4096), i = ix3 b s o := ⟨i 0, i 1, i 2, eq_ix3 i⟩
  rw [Cert.Layer.unrows_apply]
  show (∑ k : Fin 4096, shapeCast S8192x4096 x shapeCasts_S4x2048x4096_S8192x4096 (ix2 (Cert.Layer.rowOf b s) k)
        * shapeCast S4096x4096 g shapeCasts_S2097152x8_S4096x4096 (ix2 o k))
      + shapeCast S1x4096 bias shapeCasts_S4096_S1x4096 (ix2 (0 : Fin 1) o)
    = (∑ k : Fin 4096, x (ix3 b s k) * shapeCast S4096x4096 g shapeCasts_S2097152x8_S4096x4096 (ix2 o k)) + bias (ix1 o)
  rw [Cert.Layer.biasRow_apply]
  refine congrArg (· + bias (ix1 o)) (Finset.sum_congr rfl fun k _ => ?_)
  rw [Cert.Layer.rows_apply]

variable (m : (ℓ : Loc nD τ sig) → Buf (Elt Ideal) ℓ)

/-- On admitted indices the kernel's result is the layer of the activations, the gathered codebook rows as a
    [4096, 4096] table, and the bias. -/
theorem kernel_value (c : Dev nD) (hdom : Mask.InDomain (m ((c : Thread nD τ).loc main_arg1))) :
    shapeCast S4x2048x4096 (Final.lin (Final.lhsArr m c) (Final.rhsArr m c) (Final.biasArr m c)) shapeCasts_S8192x4096_S4x2048x4096
      = Cert.Layer.layer (m ((c : Thread nD τ).loc main_arg0))
          (shapeCast S4096x4096 (Host.gathered (F := Ideal) (m ((c : Thread nD τ).loc main_arg2)) (m ((c : Thread nD τ).loc main_arg1))) shapeCasts_S2097152x8_S4096x4096)
          (m ((c : Thread nD τ).loc main_arg3)) := by
  have eA := Host.V_lhs (F := Ideal) m c
  have eB := Host.V_rhs (F := Ideal) m c
  have eC := Host.V_bias (F := Ideal) m c
  unfold Final.lhsArr Final.rhsArr Final.biasArr
  rw [eA, eB, eC, lin_eq_layer, Mask.taken_eq_gathered _ _ hdom]

end Cert.KernelIdeal.Bridge

end
-- ==== Proof.RefValue.lean ====
/-
  The reference over the extended reals is the layer: its result at (b, s, o) is the sum over k of
  x[b, s, k] times its weight table at (o, k), plus bias[o]; and its weight table (the gathered
  codebook rows flattened, then cut into 4096 rows of 4096) at (o, k) is the gathered table at
  row (o * 4096 + k) / 8, lane (o * 4096 + k) mod 8.
-/
import proofs.«409225_j24721831756590_1_alg».proof.Proof.Gen.ReferenceIdeal.Read
import proofs.«409225_j24721831756590_1_alg».proof.Proof.Layer

noncomputable section

namespace Cert.ReferenceIdeal.RefValue

open Cert.ReferenceIdeal Cert.ReferenceIdeal.Gen Idealize.ShloMosaic Idealize.ShloMosaic.ValueIdx

/-- The reference's weight table at (o, k). -/
theorem weight_apply (idx : (⟨S2097152, .i32⟩ : BufTy).Contents (Elt Ideal)) (cb : (⟨S256x8, .f32⟩ : BufTy).Contents (Elt Ideal)) (o k : Fin 4096) :
    Read.val_main_v8 (F := Ideal) idx cb (ix2 o k) = Read.val_main_v6 (F := Ideal) idx cb (Cert.Layer.cell o k) := by
  unfold Read.val_main_v8 Read.val_main_v7
  exact Cert.Layer.table_flat_apply _ _ _ o k

/-- The reference's result is the layer of its arguments and its weight table. -/
theorem ref_eq_layer (x : (⟨S4x2048x4096, .f32⟩ : BufTy).Contents (Elt Ideal)) (idx : (⟨S2097152, .i32⟩ : BufTy).Contents (Elt Ideal)) (cb : (⟨S256x8, .f32⟩ : BufTy).Contents (Elt Ideal)) (bias : (⟨S4096, .f32⟩ : BufTy).Contents (Elt Ideal)) :
    Read.val_main_v12 (F := Ideal) x idx cb bias = Cert.Layer.layer x (Read.val_main_v8 (F := Ideal) idx cb) bias := by
  funext i
  rw [Read.val_main_v12_apply, Read.val_main_v9_apply, Read.val_main_v11_apply, Read.val_main_v10_apply]
  have el : ∀ k : Fin 4096, Read.lidx_main_v9 i k = ix3 (i 0) (i 1) k := fun k => funext fun a => Fin.ext (by
    match a with | ⟨0, _⟩ => rfl | ⟨1, _⟩ => rfl | ⟨2, _⟩ => rfl)
  have er : ∀ k : Fin 4096, Read.ridx_main_v9 i k = ix2 (i 2) k := fun k => funext fun a => Fin.ext (by
    match a with | ⟨0, _⟩ => rfl | ⟨1, _⟩ => rfl)
  have eb : Read.idx_main_v10 (Read.idx_main_v11 i) = ix1 (i 2) := funext fun a => Fin.ext (by
    match a with | ⟨0, _⟩ => rfl)
  simp only [el, er, eb]
  rfl

end Cert.ReferenceIdeal.RefValue

end
-- ==== Proof.lean ====
/-
  The claim. The three frames are the generated ones (the reference's is its generated run with
  the result dropped); the idealization rewrote nothing. For the value: over the extended reals
  both programs end at the SAME function of the arguments,
      out[b, s, o] = (sum over k of x[b, s, k] * W[o, k]) + bias[o],
  W[o, k] the gathered codebook entry at flat position o * 4096 + k. On the kernel's side that
  is the accumulation of four 1024-wide partial products per output block plus the bias, read
  through the re-layings; the index precondition (-256 <= indices < 256: the indices the
  reference's own indexing accepts) makes the kernel's take return the gathered row everywhere.
  On the reference's side it is the dot_general and the broadcast bias, read entry by entry. The
  two gathers are the same operation applied to the same wrapped indices.
-/
import proofs.«409225_j24721831756590_1_alg».proof.Defs
import proofs.«409225_j24721831756590_1_alg».proof.Proof.Gen.Kernel
import proofs.«409225_j24721831756590_1_alg».proof.Proof.Gen.Kernel.Skeleton
import proofs.«409225_j24721831756590_1_alg».proof.Proof.Gen.Kernel.Launch
import proofs.«409225_j24721831756590_1_alg».proof.Proof.Gen.Kernel.Points
import proofs.«409225_j24721831756590_1_alg».proof.Proof.Gen.Kernel.Frame
import proofs.«409225_j24721831756590_1_alg».proof.Proof.Gen.KernelIdeal
import proofs.«409225_j24721831756590_1_alg».proof.Proof.Gen.KernelIdeal.Skeleton
import proofs.«409225_j24721831756590_1_alg».proof.Proof.Gen.KernelIdeal.Launch
import proofs.«409225_j24721831756590_1_alg».proof.Proof.Gen.KernelIdeal.Points
import proofs.«409225_j24721831756590_1_alg».proof.Proof.Gen.KernelIdeal.Frame
import proofs.«409225_j24721831756590_1_alg».proof.Proof.Gen.ReferenceIdeal
import proofs.«409225_j24721831756590_1_alg».proof.Proof.Gen.Pre_finite_inputs
import proofs.«409225_j24721831756590_1_alg».proof.Proof.Gen.ReferenceIdeal.Run
import proofs.«409225_j24721831756590_1_alg».proof.Proof.Gen.ReferenceIdeal.Read
import proofs.«409225_j24721831756590_1_alg».proof.Proof.KernelBridge
import proofs.«409225_j24721831756590_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both weight tables are the gathered codebook rows read at flat position o * 4096 + k: the reference cuts the
    flattened rows into 4096 rows, the kernel re-lays the rows directly; the gathers are one operation on one index column. -/
theorem tables_eq (idx : (⟨Cert.KernelIdeal.S2097152, .i32⟩ : BufTy).Contents (Elt Ideal)) (cb : (⟨Cert.KernelIdeal.S256x8, .f32⟩ : BufTy).Contents (Elt Ideal)) :
    Cert.ReferenceIdeal.Read.val_main_v8 (F := Ideal) idx cb
      = shapeCast Cert.KernelIdeal.S4096x4096 (Cert.KernelIdeal.Host.gathered (F := Ideal) cb idx) Cert.KernelIdeal.Gen.shapeCasts_S2097152x8_S4096x4096 := by
  funext j
  obtain ⟨o, k, rfl⟩ : ∃ (o k : Fin 4096), j = ix2 o k := ⟨j 0, j 1, eq_ix2 j⟩
  rw [Cert.ReferenceIdeal.RefValue.weight_apply, Cert.Layer.table_apply]
  rfl

theorem algebraic : Cert.algebraic_KernelIdeal_ReferenceIdeal := by
  intro m ρ m' ρ' hpre hagree
  refine ⟨fun c => shapeCast Cert.KernelIdeal.S4x2048x4096
      (Cert.KernelIdeal.Final.lin (Cert.KernelIdeal.Final.lhsArr m c) (Cert.KernelIdeal.Final.rhsArr m c) (Cert.KernelIdeal.Final.biasArr m c))
      Cert.KernelIdeal.Gen.shapeCasts_S8192x4096_S4x2048x4096, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  show _ = shapeCast Cert.KernelIdeal.S4x2048x4096
      (Cert.KernelIdeal.Final.lin (Cert.KernelIdeal.Final.lhsArr m c) (Cert.KernelIdeal.Final.rhsArr m c) (Cert.KernelIdeal.Final.biasArr m c))
      Cert.KernelIdeal.Gen.shapeCasts_S8192x4096_S4x2048x4096
  rw [Cert.ReferenceIdeal.Read.val_main_v12_eq, Cert.ReferenceIdeal.RefValue.ref_eq_layer,
    (hagree c).1, (hagree c).2.1, (hagree c).2.2.1, (hagree c).2.2.2,
    Cert.KernelIdeal.Bridge.kernel_value m c (Cert.KernelIdeal.Mask.inDomain_of_pre _ _ _ _ (hpre c)), tables_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
